-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x11008 : Shape := ⟨2, ![4096, 11008]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4096x4096 .f32) (main_arg1 : IVec S4096x11008 32) (main_arg2 : FVec F S11008 .f32) (main_arg3 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4096x4096 : Shape := ⟨2, ![4096, 4096]⟩
abbrev S4096x11008 : Shape := ⟨2, ![4096, 11008]⟩
abbrev S11008 : Shape := ⟨1, ![11008]⟩
abbrev S_ : Shape := ⟨0, ![]⟩
abbrev S4096x11264 : Shape := ⟨2, ![4096, 11264]⟩
abbrev S11264 : Shape := ⟨1, ![11264]⟩
abbrev S1x11264 : Shape := ⟨2, ![1, 11264]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 17
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x11008, .i32⟩
  | .hbm, ⟨2, _⟩ => ⟨S11008, .f32⟩
  | .hbm, ⟨3, _⟩ => ⟨S11008, .f32⟩
  | .hbm, ⟨4, _⟩ => ⟨S_, .i32⟩
  | .hbm, ⟨5, _⟩ => ⟨S_, .i32⟩
  | .hbm, ⟨6, _⟩ => ⟨S4096x11264, .i32⟩
  | .hbm, ⟨7, _⟩ => ⟨S_, .i32⟩
  | .hbm, ⟨8, _⟩ => ⟨S_, .f32⟩
  | .hbm, ⟨9, _⟩ => ⟨S11264, .f32⟩
  | .hbm, ⟨10, _⟩ => ⟨S1x11264, .f32⟩
  | .hbm, ⟨11, _⟩ => ⟨S_, .i32⟩
  | .hbm, ⟨12, _⟩ => ⟨S_, .f32⟩
  | .hbm, ⟨13, _⟩ => ⟨S11264, .f32⟩
  | .hbm, ⟨14, _⟩ => ⟨S1x11264, .f32⟩
  | .hbm, ⟨15, _⟩ => ⟨S4096x11264, .f32⟩
  | .hbm, ⟨16, _⟩ => ⟨S4096x11008, .f32⟩
  | .local _ .vmem, ⟨0, _⟩ => ⟨S512x1024, .f32⟩
  | .local _ .vmem, ⟨1, _⟩ => ⟨S512x1024, .f32⟩
  | .local _ .vmem, ⟨2, _⟩ => ⟨S1024x1024, .i32⟩
  | .local _ .vmem, ⟨3, _⟩ => ⟨S1024x1024, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 11, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S4096x11008_S4096x11264_000_02560 : S4096x11008.Pads (![0, 0] : Fin 2 → Nat) ![0, 256] ![0, 0] S4096x11264
  h_S_ : 0 < S_.numel
  pads_S11008_S11264_02560 : S11008.Pads (![0] : Fin 1 → Nat) ![256] ![0] S11264
  shapeCasts_S11264_S1x11264 : S11264.ShapeCasts S1x11264
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  slices_S4096x11264_S4096x11008_0_0 : S4096x11264.Slices ![0, 0] S4096x11008
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x11264.size a
  hwx0_1 : ∀ i : grid0.Coords, EltTy.bits .i32 = 32 ∨ (Rect.block (s := S4096x11264) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x11264.size a
  hwx0_2 : ∀ i : grid0.Coords, EltTy.bits .f32 = 32 ∨ (Rect.block (s := S1x11264) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x11264.size a
  hwx0_3 : ∀ i : grid0.Coords, EltTy.bits .f32 = 32 ∨ (Rect.block (s := S1x11264) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x11264.size a
  hwx0_4 : ∀ i : grid0.Coords, EltTy.bits .f32 = 32 ∨ (Rect.block (s := S4096x11264) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x11008 : Shape := ⟨2, ![4096, 11008]⟩
abbrev S11008 : Shape := ⟨1, ![11008]⟩
abbrev S1x11008 : Shape := ⟨2, ![1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .i32⟩
  | .hbm, ⟨2, _⟩ => ⟨S11008, .f32⟩
  | .hbm, ⟨3, _⟩ => ⟨S11008, .f32⟩
  | .hbm, ⟨4, _⟩ => ⟨S4096x11008, .f32⟩
  | .hbm, ⟨5, _⟩ => ⟨S1x11008, .f32⟩
  | .hbm, ⟨6, _⟩ => ⟨S4096x11008, .f32⟩
  | .hbm, ⟨7, _⟩ => ⟨S4096x11008, .f32⟩
  | .hbm, ⟨8, _⟩ => ⟨S1x11008, .f32⟩
  | .hbm, ⟨9, _⟩ => ⟨S4096x11008, .f32⟩
  | .hbm, ⟨10, _⟩ => ⟨S4096x11008, .f32⟩
  | .hbm, ⟨11, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.Pieces.lean ====
/-
  What one grid point's body leaves behind, as values.

  The body keeps a running total in a scratch block. At the first stretch of the contraction (k = 0) it first
  clears the total; at every stretch it replaces the total `acc` by `acc + xb · dequant(wb)` (the step `k0_pay2` of the
  point's four input blocks and the total it found); at the last stretch (k = 3) it then copies the total into
  the output block. So, whatever the float instance:
    after a first stretch   the scratch holds  step(blocks, 0-block),
    after a later stretch   the scratch holds  step(blocks, previous total),
    after the last stretch  the output block holds that same new total.
-/
import proofs.«167369_j22265110462499_1_alg».proof.Proof.Gen.KernelIdeal.Frame
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- A first stretch: the total is cleared, read back, and the stretch's product added to it. -/
theorem scratch_first (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S1024x1024 .i32) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 x1 x3 x2 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1x1024) hz]

/-- A middle stretch: the stretch's product is added to the total the point before left. -/
theorem scratch_middle (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S1024x1024 .i32) (x2 : Vec F S1x1024 .f32) (x3 : Vec F S1x1024 .f32) (xs0 : Vec F S512x1024 .f32) :
    sout0_B_0 c i arg3 harg3 arg4 harg4 arg5 harg5 arg6 harg6 arg7 harg7 arg8 harg8 hc0 hc1 x0 x1 x2 x3 xs0 = k0_pay2 x1 x3 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1x1024) hz]

/-- The last stretch leaves the same new total in the scratch … -/
theorem scratch_last (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .i32) (x2 : Vec F S1x1024 .f32) (x3 : Vec F S1x1024 .f32) (xs0 : Vec F S512x1024 .f32) :
    sout0_C_0 c i arg3 harg3 arg4 harg4 arg5 harg5 arg6 harg6 arg7 harg7 arg8 harg8 hc0 hc1 x0 x1 x2 x3 xs0 = k0_pay2 x1 x3 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1x1024) hz]

/-- … and copies it, read back from the scratch, into the output block. -/
theorem out_last (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .i32) (x2 : Vec F S1x1024 .f32) (x3 : Vec F S1x1024 .f32) (xs0 : Vec F S512x1024 .f32) :
    out0_C_4 c i arg3 harg3 arg4 harg4 arg5 harg5 arg6 harg6 arg7 harg7 arg8 harg8 hc0 hc1 x0 x1 x2 x3 xs0 = k0_pay2 x1 x3 x2 x0 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S512x1024) _ hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1x1024) hz]

end Cert.KernelIdeal.Pieces

end
-- ==== Proof.Spec.lean ====
/-
  Dequantize-then-multiply, as mathematics over the extended reals.

  The weight matrix is stored as integers `w[k, n]`; column `n` carries an offset `o[n]` and a scale `s[n]`, and the
  dequantized entry is `(w[k, n] + o[n]) · s[n]`. The result is the matrix product
      out[r, n] = ∑ₖ x[r, k] · ((w[k, n] + o[n]) · s[n]),        k < 4096.
  A blocked evaluation cuts the contraction into four stretches of 1024 and adds the stretches' sums one after the
  other, starting from zero. Addition of extended reals is commutative and associative, so the running total after
  `j` stretches is the sum of the first `1024 · j` products, and after the fourth it is the whole sum: no finiteness
  of the entries is needed for that.

  To speak of "the first `K` products" without carrying bounds around, a function on `Fin N` is continued by zero
  to all naturals (`ext0`); rows and columns of a block are named by their block number and the position inside the
  block (`rowOf`, `colOf`), reduced modulo the extent so that they are total.
-/
import Idealize.ShloMosaic.PureOps.Ideal
import Idealize.ShloMosaic.Lib.ValueIdx

noncomputable section

open scoped BigOperators
open Idealize.ShloMosaic Idealize.ShloMosaic.ValueIdx

namespace Cert.Dequant

/-! ## Sums over an initial stretch of the naturals -/

/-- A function on `Fin N` continued by zero to every natural number. -/
def ext0 {M : Type} [Zero M] {N : ℕ} (f : Fin N → M) (k : ℕ) : M := if h : k < N then f ⟨k, h⟩ else 0

/-- Below `N` the continuation is the function. -/
theorem ext0_of_lt {M : Type} [Zero M] {N : ℕ} (f : Fin N → M) {k : ℕ} (h : k < N) : ext0 f k = f ⟨k, h⟩ := dif_pos h

/-- The sum over all of `Fin N` is the sum of the continuation over the first `N` naturals. -/
theorem sum_ext0 {M : Type} [AddCommMonoid M] {N : ℕ} (f : Fin N → M) :
    ∑ k ∈ Finset.range N, ext0 f k = ∑ k : Fin N, f k := by
  rw [Finset.sum_range]
  exact Finset.sum_congr rfl fun k _ => ext0_of_lt f k.isLt

/-- The first `a + b` terms are the first `a` and then the next `b`. -/
theorem sum_range_block {M : Type} [AddCommMonoid M] (g : ℕ → M) (a b : ℕ) :
    ∑ k ∈ Finset.range (a + b), g k = ∑ k ∈ Finset.range a, g k + ∑ j : Fin b, g (a + j.val) := by
  rw [Finset.sum_range_add, Finset.sum_range (fun j => g (a + j))]

/-! ## The products of the contraction -/

section
variable {Nc : ℕ}

/-- One product of the contraction: `x[r, k] · ((w[k, n] + o[n]) · s[n])`, the offset and the scale given as
    one-row matrices. -/
def prodAt (x : FVec Ideal ⟨2, ![4096, 4096]⟩ .f32) (w : IVec ⟨2, ![4096, Nc]⟩ 32)
    (o s : FVec Ideal ⟨2, ![1, Nc]⟩ .f32) (r : Fin 4096) (n : Fin Nc) (k : Fin 4096) : Ideal .f32 :=
  x (ix2 r k) * ((FloatOps.sitofp (F := Ideal) .f32 (w (ix2 k n)) + o (ix2 0 n)) * s (ix2 0 n))

/-- The sum of the first `K` products for output row `r`, column `n`. -/
def partialDot (x : FVec Ideal ⟨2, ![4096, 4096]⟩ .f32) (w : IVec ⟨2, ![4096, Nc]⟩ 32)
    (o s : FVec Ideal ⟨2, ![1, Nc]⟩ .f32) (r : Fin 4096) (n : Fin Nc) (K : ℕ) : Ideal .f32 :=
  ∑ k ∈ Finset.range K, ext0 (prodAt x w o s r n) k

/-- No product yet: zero. -/
theorem partialDot_zero (x : FVec Ideal ⟨2, ![4096, 4096]⟩ .f32) (w : IVec ⟨2, ![4096, Nc]⟩ 32)
    (o s : FVec Ideal ⟨2, ![1, Nc]⟩ .f32) (r : Fin 4096) (n : Fin Nc) : partialDot x w o s r n 0 = 0 :=
  Finset.sum_range_zero _

/-- One more stretch of `b` products. -/
theorem partialDot_add (x : FVec Ideal ⟨2, ![4096, 4096]⟩ .f32) (w : IVec ⟨2, ![4096, Nc]⟩ 32)
    (o s : FVec Ideal ⟨2, ![1, Nc]⟩ .f32) (r : Fin 4096) (n : Fin Nc) (K b : ℕ) :
    partialDot x w o s r n (K + b) = partialDot x w o s r n K + ∑ j : Fin b, ext0 (prodAt x w o s r n) (K + j.val) :=
  sum_range_block _ K b

/-- All 4096 products: the whole contraction. -/
theorem partialDot_full (x : FVec Ideal ⟨2, ![4096, 4096]⟩ .f32) (w : IVec ⟨2, ![4096, Nc]⟩ 32)
    (o s : FVec Ideal ⟨2, ![1, Nc]⟩ .f32) (r : Fin 4096) (n : Fin Nc) :
    partialDot x w o s r n 4096 = ∑ k : Fin 4096, prodAt x w o s r n k :=
  sum_ext0 _

end

/-! ## Rows and columns of a block -/

/-- Row `p` of row block `mi` (blocks of 512 rows). -/
def rowOf (mi : ℕ) (p : Fin 512) : Fin 4096 := ⟨(512 * mi + p.val) % 4096, Nat.mod_lt _ (by decide)⟩
/-- Column `q` of column block `ni` (blocks of 1024 columns of the widened matrix). -/
def colOf (ni : ℕ) (q : Fin 1024) : Fin 11264 := ⟨(1024 * ni + q.val) % 11264, Nat.mod_lt _ (by decide)⟩

theorem rowOf_val (mi : ℕ) (p : Fin 512) (h : mi < 8) : (rowOf mi p).val = 512 * mi + p.val := by
  have := p.isLt; show (512 * mi + p.val) % 4096 = _; omega
theorem colOf_val (ni : ℕ) (q : Fin 1024) (h : ni < 11) : (colOf ni q).val = 1024 * ni + q.val := by
  have := q.isLt; show (1024 * ni + q.val) % 11264 = _; omega

/-! ## One block's contribution, and the whole result -/

/-- The products of one 1024-stretch, summed, at position `(p, q)` of a block: what one matrix-unit product of an
    `x` block with a dequantized weight block contributes. -/
def blockDot (xb : FVec Ideal ⟨2, ![512, 1024]⟩ .f32) (wb : IVec ⟨2, ![1024, 1024]⟩ 32)
    (ob sb : FVec Ideal ⟨2, ![1, 1024]⟩ .f32) (p : Fin 512) (q : Fin 1024) : Ideal .f32 :=
  ∑ kk : Fin 1024, xb (ix2 p kk) * ((FloatOps.sitofp (F := Ideal) .f32 (wb (ix2 kk q)) + ob (ix2 0 q)) * sb (ix2 0 q))

/-- The result over the widened (column-padded) matrices: the whole contraction at every entry. -/
def wide (x : FVec Ideal ⟨2, ![4096, 4096]⟩ .f32) (w : IVec ⟨2, ![4096, 11264]⟩ 32)
    (o s : FVec Ideal ⟨2, ![1, 11264]⟩ .f32) : FVec Ideal ⟨2, ![4096, 11264]⟩ .f32 :=
  fun i => ∑ k : Fin 4096, prodAt x w o s (i 0) (i 1) k

/-- The result over the matrices as given, offset and scale as vectors:
    `out[r, n] = ∑ₖ x[r, k] · ((w[k, n] + o[n]) · s[n])`. -/
def result (x : FVec Ideal ⟨2, ![4096, 4096]⟩ .f32) (w : IVec ⟨2, ![4096, 11008]⟩ 32)
    (s o : FVec Ideal ⟨1, ![11008]⟩ .f32) : FVec Ideal ⟨2, ![4096, 11008]⟩ .f32 :=
  fun i => ∑ k : Fin 4096, x (ix2 (i 0) k) * ((FloatOps.sitofp (F := Ideal) .f32 (w (ix2 k (i 1))) + o (ix1 (i 1))) * s (ix1 (i 1)))

end Cert.Dequant

end
-- ==== Proof.Payload.lean ====
/-
  The body's arithmetic read at one entry, over the extended reals.

  The step takes an `x` block [512, 1024], an integer weight block [1024, 1024], the offset and scale rows
  [1, 1024] of the block's columns, and the running total. It converts the weights, adds the offset row and
  multiplies by the scale row (both rows repeated down the 1024 rows), and adds to the total the matrix product of
  the `x` block with that dequantized block. The narrowing of both factors to bf16 is the identity on extended reals,
  and the matrix unit's product into a zero accumulator is the plain sum over the contracted index. So at (p, q):
      step(…)(p, q) = total(p, q) + ∑ₖ xb(p, k) · ((wb(k, q) + ob(0, q)) · sb(0, q)).
  The block that clears the total is zero everywhere.
-/
import proofs.«167369_j22265110462499_1_alg».proof.Proof.Gen.KernelIdeal.Skeleton
import proofs.«167369_j22265110462499_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)

namespace Cert.KernelIdeal.Payload

open Cert.KernelIdeal Cert.KernelIdeal.Gen Idealize.ShloMosaic.ValueIdx

/-! ## Where the matrix product reads its two factors -/

theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_contr (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_contr (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a [512, 1024] block with a [1024, 1024] block into the zero block, at (p, q), is the sum over
    the contracted coordinate. -/
theorem product_apply (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ kk : Fin 1024, l (ix2 p kk) * r (ix2 kk q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_contr _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- A row [1, 1024] repeated down 1024 rows reads, at (k, q), the row at q. -/
theorem row_repeat (v : FVec Ideal S1x1024 .f32) (k q : Fin 1024) :
    broadcastTo S1024x1024 v broadcasts_S1x1024_S1024x1024 (ix2 k q) = v (ix2 (0 : Fin 1) q) := by
  refine broadcastTo_apply v broadcasts_S1x1024_S1024x1024 (ix2 k q) (ix2 (0 : Fin 1) q) fun a => ?_
  match a with
  | ⟨0, _⟩ => rfl
  | ⟨1, _⟩ => rfl

/-- THE STEP at (p, q): the total there plus the block's 1024 products. -/
theorem step_apply (wb : Vec Ideal S1024x1024 .i32) (ob sb : Vec Ideal S1x1024 .f32) (xb acc : Vec Ideal S512x1024 .f32)
    (p : Fin 512) (q : Fin 1024) :
    k0_pay2 (F := Ideal) wb ob sb xb acc (ix2 p q) = acc (ix2 p q) + Cert.Dequant.blockDot xb wb ob sb p q := by
  unfold k0_pay2
  simp only [shapeCast_self]
  rw [addf_apply, product_apply]
  unfold Cert.Dequant.blockDot
  refine congrArg (acc (ix2 p q) + ·) (Finset.sum_congr rfl fun kk _ => ?_)
  rw [truncf_apply, truncf_apply, mulf_apply, addf_apply, sitofp_apply, row_repeat, row_repeat]

/-- The clearing block is zero at every entry. -/
theorem clear_apply (y : S512x1024.Idx) : k0_pay1 (F := Ideal) y = 0 := by
  unfold k0_pay1
  simp only [shapeCast_self]
  show Ideal.ofBits .f32 0x00000000#32 = 0
  exact Ideal.ofBits_zero_f32

end Cert.KernelIdeal.Payload

end
-- ==== Proof.Blocks.lean ====
/-
  The four input blocks of a grid point, read as entries of the arrays the region is entered with.

  The grid is 8 × 11 × 4, the last axis fastest: point `t` has row block `t / 44`, column block `t / 4 % 11` and
  contraction stretch `t % 4`. The `x` block is rows `512·(t/44) + p`, columns `1024·(t%4) + k`; the weight block is
  rows `1024·(t%4) + k`, columns `1024·(t/4%11) + q` of the widened weight matrix; the scale and offset blocks are
  columns `1024·(t/4%11) + q` of the widened one-row scale and offset. Hence the sum of one block's 1024 products
  is the next 1024 products of the contraction for that row and column.
-/
import proofs.«167369_j22265110462499_1_alg».proof.Proof.Gen.KernelIdeal.Frame
import proofs.«167369_j22265110462499_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Dequant

variable (m : (ℓ : Loc nD τ sig) → Buf (Elt Ideal) ℓ)

/-! ## The arrays as the region finds them, and the blocks, at their literal types -/

/-- `x`. -/
abbrev xArr (c : Dev nD) : FVec Ideal S4096x4096 .f32 := V m c main_arg0
/-- The widened integer weights. -/
abbrev wArr (c : Dev nD) : IVec S4096x11264 32 := V m c main_v0
/-- The widened scale row. -/
abbrev sArr (c : Dev nD) : FVec Ideal S1x11264 .f32 := V m c main_v2
/-- The widened offset row. -/
abbrev oArr (c : Dev nD) : FVec Ideal S1x11264 .f32 := V m c main_v4

abbrev xBlk (c : Dev nD) (t : Fin cfg0.N) : FVec Ideal S512x1024 .f32 := iblk m c 0 t
abbrev wBlk (c : Dev nD) (t : Fin cfg0.N) : IVec S1024x1024 32 := iblk m c 1 t
abbrev sBlk (c : Dev nD) (t : Fin cfg0.N) : FVec Ideal S1x1024 .f32 := iblk m c 2 t
abbrev oBlk (c : Dev nD) (t : Fin cfg0.N) : FVec Ideal S1x1024 .f32 := iblk m c 3 t

/-! ## The block numbers of a point, decided over the grid -/

theorem num_x : ∀ t : Fin cfg0.N, win0_0.index t 0 = t.val / 44 ∧ win0_0.index t 1 = t.val % 4 :=
  (by decide +kernel : ∀ t : Fin grid0.N, win0_0.index t 0 = t.val / 44 ∧ win0_0.index t 1 = t.val % 4)
theorem num_w : ∀ t : Fin cfg0.N, win0_1.index t 0 = t.val % 4 ∧ win0_1.index t 1 = t.val / 4 % 11 :=
  (by decide +kernel : ∀ t : Fin grid0.N, win0_1.index t 0 = t.val % 4 ∧ win0_1.index t 1 = t.val / 4 % 11)
theorem num_s : ∀ t : Fin cfg0.N, win0_2.index t 0 = 0 ∧ win0_2.index t 1 = t.val / 4 % 11 :=
  (by decide +kernel : ∀ t : Fin grid0.N, win0_2.index t 0 = 0 ∧ win0_2.index t 1 = t.val / 4 % 11)
theorem num_o : ∀ t : Fin cfg0.N, win0_3.index t 0 = 0 ∧ win0_3.index t 1 = t.val / 4 % 11 :=
  (by decide +kernel : ∀ t : Fin grid0.N, win0_3.index t 0 = 0 ∧ win0_3.index t 1 = t.val / 4 % 11)

theorem lt_N (t : Fin cfg0.N) : t.val < 352 := lt_of_lt_of_eq t.isLt (show cfg0.N = 352 from N_0)

/-! ## The blocks at an entry -/

theorem xBlk_apply (c : Dev nD) (t : Fin cfg0.N) (p : Fin 512) (k : Fin 1024) :
    xBlk m c t (ix2 p k) = xArr m c (ix2 (rowOf (t.val / 44) p) ⟨1024 * (t.val % 4) + k.val, by have := k.isLt; omega⟩) := by
  have hN := lt_N t
  have hi := num_x t
  show iblk m c 0 t (ix2 p k) = V m c main_arg0 _
  unfold iblk
  rw [View.read_apply]
  show V m c main_arg0 _ = V m c main_arg0 _
  congr 1
  funext a
  apply Fin.ext
  match a with
  | ⟨0, _⟩ =>
    show win0_0.index t 0 * 512 + 1 * p.val = (rowOf (t.val / 44) p).val
    rw [hi.1, rowOf_val _ _ (by omega)]; omega
  | ⟨1, _⟩ =>
    show win0_0.index t 1 * 1024 + 1 * k.val = 1024 * (t.val % 4) + k.val
    rw [hi.2]; omega

theorem wBlk_apply (c : Dev nD) (t : Fin cfg0.N) (k q : Fin 1024) :
    wBlk m c t (ix2 k q) = wArr m c (ix2 ⟨1024 * (t.val % 4) + k.val, by have := k.isLt; omega⟩ (colOf (t.val / 4 % 11) q)) := by
  have hN := lt_N t
  have hi := num_w t
  show iblk m c 1 t (ix2 k q) = V m c main_v0 _
  unfold iblk
  rw [View.read_apply]
  show V m c main_v0 _ = V m c main_v0 _
  congr 1
  funext a
  apply Fin.ext
  match a with
  | ⟨0, _⟩ =>
    show win0_1.index t 0 * 1024 + 1 * k.val = 1024 * (t.val % 4) + k.val
    rw [hi.1]; omega
  | ⟨1, _⟩ =>
    show win0_1.index t 1 * 1024 + 1 * q.val = (colOf (t.val / 4 % 11) q).val
    rw [hi.2, colOf_val _ _ (by omega)]; omega

theorem sBlk_apply (c : Dev nD) (t : Fin cfg0.N) (q : Fin 1024) :
    sBlk m c t (ix2 (0 : Fin 1) q) = sArr m c (ix2 (0 : Fin 1) (colOf (t.val / 4 % 11) q)) := by
  have hN := lt_N t
  have hi := num_s t
  show iblk m c 2 t (ix2 (0 : Fin 1) q) = V m c main_v2 _
  unfold iblk
  rw [View.read_apply]
  show V m c main_v2 _ = V m c main_v2 _
  congr 1
  funext a
  apply Fin.ext
  match a with
  | ⟨0, _⟩ =>
    show win0_2.index t 0 * 1 + 1 * 0 = 0
    rw [hi.1]
  | ⟨1, _⟩ =>
    show win0_2.index t 1 * 1024 + 1 * q.val = (colOf (t.val / 4 % 11) q).val
    rw [hi.2, colOf_val _ _ (by omega)]; omega

theorem oBlk_apply (c : Dev nD) (t : Fin cfg0.N) (q : Fin 1024) :
    oBlk m c t (ix2 (0 : Fin 1) q) = oArr m c (ix2 (0 : Fin 1) (colOf (t.val / 4 % 11) q)) := by
  have hN := lt_N t
  have hi := num_o t
  show iblk m c 3 t (ix2 (0 : Fin 1) q) = V m c main_v4 _
  unfold iblk
  rw [View.read_apply]
  show V m c main_v4 _ = V m c main_v4 _
  congr 1
  funext a
  apply Fin.ext
  match a with
  | ⟨0, _⟩ =>
    show win0_3.index t 0 * 1 + 1 * 0 = 0
    rw [hi.1]
  | ⟨1, _⟩ =>
    show win0_3.index t 1 * 1024 + 1 * q.val = (colOf (t.val / 4 % 11) q).val
    rw [hi.2, colOf_val _ _ (by omega)]; omega

/-! ## One block's products are the next 1024 of the contraction -/

/-- At point `t` the block's sum at (p, q) is the sum of products number `1024·(t%4)` to `1024·(t%4) + 1023` of
    the contraction for row `512·(t/44) + p` and column `1024·(t/4%11) + q`. -/
theorem blockDot_eq (c : Dev nD) (t : Fin cfg0.N) (p : Fin 512) (q : Fin 1024) :
    blockDot (xBlk m c t) (wBlk m c t) (oBlk m c t) (sBlk m c t) p q
      = ∑ j : Fin 1024, ext0 (prodAt (xArr m c) (wArr m c) (oArr m c) (sArr m c) (rowOf (t.val / 44) p) (colOf (t.val / 4 % 11) q))
          (1024 * (t.val % 4) + j.val) := by
  unfold blockDot
  refine Finset.sum_congr rfl fun j _ => ?_
  rw [ext0_of_lt _ (by have := j.isLt; omega : 1024 * (t.val % 4) + j.val < 4096)]
  unfold prodAt
  rw [xBlk_apply, wBlk_apply, oBlk_apply, sBlk_apply]

end Cert.KernelIdeal.Blocks

end
-- ==== Proof.Running.lean ====
/-
  The running total across the grid.

  Fix a row block and a column block; the four points that share them are consecutive (the contraction stretch is
  the fastest grid axis). The first of the four clears the total and adds its block's 1024 products; each later
  one adds its own 1024 to what the point before left. By induction on the point, after point `n` the scratch
  holds at (p, q) the sum of the first `1024·(n%4) + 1024` products of the contraction for row `512·(n/44) + p`
  and column `1024·(n/4%11) + q`. At the fourth point that is all 4096 products, and the output block is that total.
-/
import proofs.«167369_j22265110462499_1_alg».proof.Proof.Pieces
import proofs.«167369_j22265110462499_1_alg».proof.Proof.Payload
import proofs.«167369_j22265110462499_1_alg».proof.Proof.Blocks

set_option maxRecDepth 16384

noncomputable section

open scoped BigOperators
open Idealize.ShloMosaic Idealize.ShloMosaic.TcCoe Idealize.SL.Sem
open Idealize.ShloMosaic.Pipeline (Dat)

namespace Cert.KernelIdeal.Running

open Cert.KernelIdeal Cert.KernelIdeal.Gen Idealize.ShloMosaic.ValueIdx Cert.Dequant Cert.KernelIdeal.Blocks

variable (m : (ℓ : Loc nD τ sig) → Buf (Elt Ideal) ℓ)

/-- The products of the contraction for position (p, q) of the blocks of point number `n`. -/
abbrev prods (c : Dev nD) (n : ℕ) (p : Fin 512) (q : Fin 1024) : Fin 4096 → Ideal .f32 :=
  prodAt (xArr m c) (wArr m c) (oArr m c) (sArr m c) (rowOf (n / 44) p) (colOf (n / 4 % 11) q)

/-- A first stretch leaves its block's 1024 products, summed. -/
theorem total_first (c : Dev nD) (t : Fin cfg0.N) (h0 : t.val % 4 = 0) (p : Fin 512) (q : Fin 1024) :
    (outsAt0 m c t.val t.isLt).2 (ix2 p q) = ∑ j : Fin 1024, ext0 (prods m c t.val p q) (1024 * (t.val % 4) + j.val) := by
  have h1 : ¬t.val % 4 = 3 := by omega
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  refine (Payload.step_apply (wBlk m c t) (oBlk m c t) (sBlk m c t) (xBlk m c t) (k0_pay1 (F := Ideal)) p q).trans ?_
  rw [Payload.clear_apply, zero_add]
  exact blockDot_eq m c t p q

/-- A later stretch adds its block's 1024 products to what the point before left. -/
theorem total_next (c : Dev nD) (t : Fin cfg0.N) (h0 : ¬t.val % 4 = 0) (p : Fin 512) (q : Fin 1024) :
    (outsAt0 m c t.val t.isLt).2 (ix2 p q)
      = (outsAt0 m c (t.val - 1) (Nat.lt_of_le_of_lt (Nat.sub_le _ _) t.isLt)).2 (ix2 p q) + ∑ j : Fin 1024, ext0 (prods m c t.val p q) (1024 * (t.val % 4) + j.val) := by
  by_cases h1 : t.val % 4 = 3
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
    refine (Payload.step_apply (wBlk m c t) (oBlk m c t) (sBlk m c t) (xBlk m c t) (outsAt0 m c (t.val - 1) (Nat.lt_of_le_of_lt (Nat.sub_le _ _) t.isLt)).2 p q).trans ?_
    rw [blockDot_eq m c t p q]
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
    refine (Payload.step_apply (wBlk m c t) (oBlk m c t) (sBlk m c t) (xBlk m c t) (outsAt0 m c (t.val - 1) (Nat.lt_of_le_of_lt (Nat.sub_le _ _) t.isLt)).2 p q).trans ?_
    rw [blockDot_eq m c t p q]

/-- THE RUNNING TOTAL after point `n`: the first `1024·(n%4) + 1024` products. -/
theorem total_eq (c : Dev nD) : ∀ (n : ℕ) (h : n < cfg0.N) (p : Fin 512) (q : Fin 1024),
    (outsAt0 m c n h).2 (ix2 p q)
      = partialDot (xArr m c) (wArr m c) (oArr m c) (sArr m c) (rowOf (n / 44) p) (colOf (n / 4 % 11) q) (1024 * (n % 4) + 1024)
  | 0, h, p, q => by
    refine (total_first m c ⟨0, h⟩ rfl p q).trans ?_
    show ∑ j : Fin 1024, ext0 (prods m c 0 p q) (1024 * (0 % 4) + j.val) = _
    rw [partialDot_add, show 1024 * (0 % 4) = 0 from rfl, partialDot_zero, zero_add]
  | n + 1, h, p, q => by
    by_cases h0 : (n + 1) % 4 = 0
    · refine (total_first m c ⟨n + 1, h⟩ h0 p q).trans ?_
      show ∑ j : Fin 1024, ext0 (prods m c (n + 1) p q) (1024 * ((n + 1) % 4) + j.val) = _
      rw [partialDot_add, h0, Nat.mul_zero, partialDot_zero, zero_add]
    · refine (total_next m c ⟨n + 1, h⟩ h0 p q).trans ?_
      show (outsAt0 m c n (Nat.lt_of_succ_lt h)).2 (ix2 p q) + ∑ j : Fin 1024, ext0 (prods m c (n + 1) p q) (1024 * ((n + 1) % 4) + j.val) = _
      have e1 : n / 44 = (n + 1) / 44 := by omega
      have e2 : n / 4 % 11 = (n + 1) / 4 % 11 := by omega
      have e3 : 1024 * (n % 4) + 1024 = 1024 * ((n + 1) % 4) := by omega
      rw [total_eq c n (Nat.lt_of_succ_lt h) p q, e1, e2, e3, partialDot_add]

/-- At a last stretch the output block is the scratch's new total. -/
theorem out_eq_total (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2).symm

/-- So at a last stretch the output block holds, at (p, q), the whole contraction for its row and column. -/
theorem out_eq (c : Dev nD) (t : Fin cfg0.N) (h3 : t.val % 4 = 3) (p : Fin 512) (q : Fin 1024) :
    (outsAt0 m c t.val t.isLt).1 (ix2 p q) = ∑ k : Fin 4096, prods m c t.val p q k := by
  rw [out_eq_total m c t h3, total_eq m c t.val t.isLt p q, h3]
  exact partialDot_full _ _ _ _ _ _

end Cert.KernelIdeal.Running

end
-- ==== Proof.Widened.lean ====
/-
  The widened result array after the run.

  The output block of row block `mi`, column block `ni` is written back once, after the fourth stretch
  (point `44·mi + 4·ni + 3`), and then holds the whole contraction for each of its entries: it is that block of the
  function `wide` of the arrays the region was entered with. Every entry (r, n) of the [4096, 11264] array lies in
  exactly such a block — that of `mi = r / 512`, `ni = n / 1024` — so the array ends equal to `wide`.
-/
import proofs.«167369_j22265110462499_1_alg».proof.Proof.Running

set_option maxRecDepth 16384

noncomputable section

open scoped BigOperators
open Idealize.ShloMosaic Idealize.ShloMosaic.TcCoe Idealize.SL.Sem
open Idealize.ShloMosaic.Pipeline (Dat)

namespace Cert.KernelIdeal.Widened

open Cert.KernelIdeal Cert.KernelIdeal.Gen Idealize.ShloMosaic.ValueIdx Cert.Dequant Cert.KernelIdeal.Blocks

variable (m : (ℓ : Loc nD τ sig) → Buf (Elt Ideal) ℓ)

/-- The output's block numbers at a point, decided over the grid. -/
theorem num_out : ∀ t : Fin cfg0.N, win0_4.index t 0 = t.val / 44 ∧ win0_4.index t 1 = t.val / 4 % 11 :=
  (by decide +kernel : ∀ t : Fin grid0.N, win0_4.index t 0 = t.val / 44 ∧ win0_4.index t 1 = t.val / 4 % 11)

/-- The whole contraction at every entry of the widened array, from the arrays the region finds. -/
abbrev wideOf (c : Dev nD) : FVec Ideal S4096x11264 .f32 := wide (xArr m c) (wArr m c) (oArr m c) (sArr m c)

/-- After a fourth stretch the output block, entry by entry, is `wide` at the entry's row and column. -/
theorem out_at (c : Dev nD) (t : Fin cfg0.N) (h3 : t.val % 4 = 3) (y : S512x1024.Idx) :
    (outsAt0 m c t.val t.isLt).1 y = wideOf m c (ix2 (rowOf (t.val / 44) (y 0)) (colOf (t.val / 4 % 11) (y 1))) := by
  obtain ⟨p, q, rfl⟩ : ∃ (p : Fin 512) (q : Fin 1024), y = ix2 p q := ⟨y 0, y 1, eq_ix2 y⟩
  exact Running.out_eq m c t h3 p q

/-- What a writing point writes back is its block of `wide`. -/
theorem flushed_eq (c : Dev nD) (t : Fin cfg0.N) (hf : (cfg0.win 4).flush t = true) :
    (dats m 0 c).flushed 4 t = ((cfg0.win 4).blk t).view.read (Elt Ideal) (wideOf m c) := by
  have h3 : t.val % 4 = 3 := (flush0_4 t).mp hf
  have hN := lt_N t
  have hi := num_out t
  show (cfg0.win 4).cut (grid0.coords t) ((dats m 0 c).after 4 t) = _
  rw [after0_4]
  refine funext fun (y : S512x1024.Idx) => ?_
  obtain ⟨p, q, rfl⟩ : ∃ (p : Fin 512) (q : Fin 1024), y = ix2 p q := ⟨y 0, y 1, eq_ix2 y⟩
  refine (out_at m c t h3 (ix2 p q)).trans ?_
  show wideOf m c (ix2 (rowOf (t.val / 44) p) (colOf (t.val / 4 % 11) q)) = wideOf m c (((cfg0.win 4).blk t).view.emb (ix2 p q))
  congr 1
  funext a
  apply Fin.ext
  match a with
  | ⟨0, _⟩ =>
    show (rowOf (t.val / 44) p).val = win0_4.index t 0 * 512 + 1 * p.val
    rw [hi.1, rowOf_val (t.val / 44) p (by omega)]; omega
  | ⟨1, _⟩ =>
    show (colOf (t.val / 4 % 11) q).val = win0_4.index t 1 * 1024 + 1 * q.val
    rw [hi.2, colOf_val (t.val / 4 % 11) q (by omega)]; omega

/-- An entry of the array is in point `t`'s output block iff each coordinate is in the block's range. -/
theorem mem_blk (t : Fin cfg0.N) (i : S4096x11264.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5).slice (win0_4.rect t)).set ↔ _
  rw [View.set_slice_whole, Rect.mem_set_unit]
  exact Iff.rfl

/-- Every entry (r, n) is written back by the fourth point of its blocks, `44·(r/512) + 4·(n/1024) + 3`. -/
theorem cover (i : S4096x11264.Idx) :
    ∃ t : Fin cfg0.N, (cfg0.win 4).flush t = true ∧ i ∈ ((cfg0.win 4).blk t).view.set := by
  have hi0 : (i 0).val < 4096 := idx2_lt0 i
  have hi1 : (i 1).val < 11264 := idx2_lt1 i
  obtain ⟨e, he⟩ : ∃ e : ℕ, e = 44 * ((i 0).val / 512) + 4 * ((i 1).val / 1024) + 3 := ⟨_, rfl⟩
  have hlt : e < cfg0.N := lt_of_lt_of_eq (by omega) (show 352 = cfg0.N from N_0.symm)
  have hn : win0_4.index ⟨e, hlt⟩ 0 = e / 44 ∧ win0_4.index ⟨e, hlt⟩ 1 = e / 4 % 11 := num_out ⟨e, hlt⟩
  refine ⟨⟨e, hlt⟩, (flush0_4 ⟨e, hlt⟩).mpr (by show e % 4 = 3; omega), ?_⟩
  rw [mem_blk]
  intro a
  match a with
  | ⟨0, _⟩ =>
    show win0_4.index ⟨e, hlt⟩ 0 * 512 ≤ (i 0).val ∧ (i 0).val < win0_4.index ⟨e, hlt⟩ 0 * 512 + 512
    rw [hn.1]; omega
  | ⟨1, _⟩ =>
    show win0_4.index ⟨e, hlt⟩ 1 * 1024 ≤ (i 1).val ∧ (i 1).val < win0_4.index ⟨e, hlt⟩ 1 * 1024 + 1024
    rw [hn.2]; omega

/-- THE WIDENED ARRAY after the run is `wide` of the arrays the region was entered with. -/
theorem final (c : Dev nD) : (dats m 0 c).arrAt 4 cfg0.N = wideOf m c :=
  (dats m 0 c).arrAt_eq_of_cover 4 (wideOf m c) (flushed_eq m c) cover

end Cert.KernelIdeal.Widened

end
-- ==== Proof.KernelRun.lean ====
/-
  The kernel program's run, read: its result is the dequantized matrix product of its arguments.

  Before the region the host widens the weight matrix and the scale and offset vectors from 11008 to 11264
  columns (the added columns hold a padding value) and views the two vectors as one-row matrices; `x` is passed
  as it is. After the region the host keeps columns 0 … 11007 of the widened result. An entry (r, n) with
  `n < 11008` of the widened result is the contraction over the widened arrays at column `n`, where each widened
  array is the original (the padding is never read): so the kept part is `result` of the four arguments.
-/
import proofs.«167369_j22265110462499_1_alg».proof.Proof.Widened
import Idealize.ShloMosaic.Lib.StableHlo.Run
import Idealize.ShloMosaic.Lib.KernelVsHost

set_option maxRecDepth 16384

noncomputable section

open scoped BigOperators
open Idealize.ShloMosaic Idealize.ShloMosaic.TcCoe Idealize.SL.Sem
open Idealize.ShloMosaic.Pipeline (Dat)

namespace Cert.KernelIdeal.KernelRun

open Cert.KernelIdeal Cert.KernelIdeal.Gen Idealize.ShloMosaic.ValueIdx Cert.Dequant Cert.KernelIdeal.Blocks Cert.KernelIdeal.Widened

variable (m : (ℓ : Loc nD τ sig) → Buf (Elt Ideal) ℓ) (ρ : Dev nD → PrngReg)

/-! ## The arrays the region finds, as the host made them -/

/-- `x` is the argument. -/
theorem xArr_eq (c : Dev nD) : xArr m c = (m ((c : Thread nD τ).loc main_arg0)) := V_main_arg0 m c

/-- The widened weights: the argument padded on the right by 256 columns. -/
theorem wArr_eq (c : Dev nD) : wArr m c = pad S4096x11264 ![0, 0] ![0, 256] ![0, 0] (m ((c : Thread nD τ).loc main_arg1)) (id (constantI S_ 32 0#32)) pads_S4096x11008_S4096x11264_000_02560 h_S_ := by
  dsimp only [wArr, V, V0]
  simp only [hostOps0, hostOps0_1, hostOps0_2, hostOps0_3, hostOps0_4, hostOps0_5, hostOps0_6, List.flatten_cons, List.flatten_nil, List.append_nil, List.cons_append, List.nil_append]
  after_results
  rfl

/-- The widened scale row: the argument padded by 256 entries, viewed as one row. -/
theorem sArr_eq (c : Dev nD) : sArr m c = shapeCast S1x11264 (pad S11264 ![0] ![256] ![0] (m ((c : Thread nD τ).loc main_arg2)) (sitofp (F := Ideal) .f32 (constantI S_ 32 0#32)) pads_S11008_S11264_02560 h_S_) shapeCasts_S11264_S1x11264 := by
  dsimp only [sArr, V, V0]
  simp only [hostOps0, hostOps0_1, hostOps0_2, hostOps0_3, hostOps0_4, hostOps0_5, hostOps0_6, List.flatten_cons, List.flatten_nil, List.append_nil, List.cons_append, List.nil_append]
  after_results
  rfl

/-- The widened offset row likewise. -/
theorem oArr_eq (c : Dev nD) : oArr m c = shapeCast S1x11264 (pad S11264 ![0] ![256] ![0] (m ((c : Thread nD τ).loc main_arg3)) (sitofp (F := Ideal) .f32 (constantI S_ 32 0#32)) pads_S11008_S11264_02560 h_S_) shapeCasts_S11264_S1x11264 := by
  dsimp only [oArr, V, V0]
  simp only [hostOps0, hostOps0_1, hostOps0_2, hostOps0_3, hostOps0_4, hostOps0_5, hostOps0_6, List.flatten_cons, List.flatten_nil, List.append_nil, List.cons_append, List.nil_append]
  after_results
  rfl

/-! ## Their entries at an original column -/

/-- A column below 11008, as a column of the widened arrays. -/
abbrev wideCol (n : Fin 11008) : Fin 11264 := ⟨n.val, by have := n.isLt; omega⟩

theorem wArr_apply (c : Dev nD) (k : Fin 4096) (n : Fin 11008) :
    wArr m c (ix2 k (wideCol n)) = (m ((c : Thread nD τ).loc main_arg1)) (ix2 k n) := by
  rw [wArr_eq]
  exact pad_apply_of_inside _ _ _ _ _ pads_S4096x11008_S4096x11264_000_02560 h_S_ (ix2 k (wideCol n)) (ix2 k n) (fun a => match a with
    | ⟨0, _⟩ => by show k.val = 0 + k.val * (0 + 1); omega
    | ⟨1, _⟩ => by show n.val = 0 + n.val * (0 + 1); omega)

/-- A padded vector viewed as one row reads, at an original column, the vector there. -/
theorem row_apply (v : FVec Ideal S11008 .f32) (z : FVec Ideal S_ .f32) (n : Fin 11008) :
    shapeCast S1x11264 (pad S11264 ![0] ![256] ![0] v z pads_S11008_S11264_02560 h_S_) shapeCasts_S11264_S1x11264 (ix2 (0 : Fin 1) (wideCol n))
      = v (ix1 n) := by
  refine (shapeCast_apply _ shapeCasts_S11264_S1x11264 (ix2 (0 : Fin 1) (wideCol n)) (ix1 (wideCol n)) ?_).trans ?_
  · rw [Shape.rowMajor_val_one, Shape.rowMajor_val_two]
    show n.val = 0 * 11264 + n.val
    omega
  · exact pad_apply_of_inside _ _ _ _ _ pads_S11008_S11264_02560 h_S_ (ix1 (wideCol n)) (ix1 n) (fun a => match a with
      | ⟨0, _⟩ => by show n.val = 0 + n.val * (0 + 1); omega)

theorem sArr_apply (c : Dev nD) (n : Fin 11008) : sArr m c (ix2 (0 : Fin 1) (wideCol n)) = (m ((c : Thread nD τ).loc main_arg2)) (ix1 n) := by
  rw [sArr_eq]; exact row_apply _ _ n
theorem oArr_apply (c : Dev nD) (n : Fin 11008) : oArr m c (ix2 (0 : Fin 1) (wideCol n)) = (m ((c : Thread nD τ).loc main_arg3)) (ix1 n) := by
  rw [oArr_eq]; exact row_apply _ _ n

/-! ## The kept columns of the widened result -/

/-- What the program returns: `result` of its four arguments. -/
abbrev resultOf (c : Dev nD) : FVec Ideal S4096x11008 .f32 :=
  result (m ((c : Thread nD τ).loc main_arg0)) (m ((c : Thread nD τ).loc main_arg1)) (m ((c : Thread nD τ).loc main_arg2)) (m ((c : Thread nD τ).loc main_arg3))

/-- Columns 0 … 11007 of `wide` of the widened arrays are `result` of the arguments. -/
theorem kept_eq (c : Dev nD) :
    extractStridedSlice S4096x11008 ![0, 0] (wideOf m c) slices_S4096x11264_S4096x11008_0_0 = resultOf m c := by
  funext i
  obtain ⟨r, n, rfl⟩ : ∃ (r : Fin 4096) (n : Fin 11008), i = ix2 r n := ⟨i 0, i 1, eq_ix2 i⟩
  refine (extractStridedSlice_apply ![0, 0] (wideOf m c) slices_S4096x11264_S4096x11008_0_0 (ix2 r n) (ix2 r (wideCol n)) (fun a => match a with
    | ⟨0, _⟩ => by show r.val = 0 + r.val; omega
    | ⟨1, _⟩ => by show n.val = 0 + n.val; omega)).trans ?_
  show ∑ k : Fin 4096, prodAt (xArr m c) (wArr m c) (oArr m c) (sArr m c) r (wideCol n) k = ∑ k : Fin 4096, _
  refine Finset.sum_congr rfl fun k _ => ?_
  unfold prodAt
  rw [wArr_apply, sArr_apply, oArr_apply, xArr_eq]

/-- The buffer the program returns, after the host's last line: the kept columns of the widened array. -/
theorem tail_eq (c : Dev nD) : Pipeline.afterTail₀ cfgs (dats m) 0 (V0 m) [hostOps1] c main_v6 = resultOf m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5) = wideOf m c :=
    (Pipeline.withArrays_arr spec0 launch0.win.arr_inj c _ _ 4).trans (Widened.final m c)
  rw [e]
  exact kept_eq m c

/-! ## The run -/

/-- Every weakly fair execution of the program ends with its result at `result` of the arguments, the arguments unchanged. -/
theorem run : θ_run defs (onTc (τ := τ) (main (F := Ideal))) ⟨m, fun _ => 0, ρ⟩ (fun r => ∀ c : Dev nD,
      r.2.mem ((c : Thread nD τ).loc main_v6) = resultOf m c
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))) :=
  (θ_run defs _ _).mono (fun _ h c => ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.RefValue.lean ====
/-
  The reference program computes `result`.

  Its eight host operations convert the weights, add the offset vector and multiply by the scale vector (each
  repeated down the 4096 rows), and contract `x` with that matrix. Read at entry (r, n), stage by stage, this is
      ∑ₖ x[r, k] · ((w[k, n] + o[n]) · s[n]).
-/
import proofs.«167369_j22265110462499_1_alg».proof.Defs
import proofs.«167369_j22265110462499_1_alg».proof.Proof.Gen.ReferenceIdeal.Run
import proofs.«167369_j22265110462499_1_alg».proof.Proof.Gen.ReferenceIdeal.Read
import proofs.«167369_j22265110462499_1_alg».proof.Proof.Spec

set_option maxRecDepth 16384

noncomputable section

open scoped BigOperators
open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.ReferenceIdeal.Read Idealize.ShloMosaic.ValueIdx Cert.Dequant

/-- The reference's last stage, as a function of the four arguments, is `result`. -/
theorem stage_eq (x0 : FVec Ideal S4096x4096 .f32) (x1 : IVec S4096x11008 32) (x2 x3 : FVec Ideal S11008 .f32) :
    val_main_v7 (F := Ideal) x0 x1 x2 x3 = result x0 x1 x2 x3 := by
  funext i
  obtain ⟨r, n, rfl⟩ : ∃ (r : Fin 4096) (n : Fin 11008), i = ix2 r n := ⟨i 0, i 1, eq_ix2 i⟩
  rw [val_main_v7_apply]
  show _ = ∑ k : Fin 4096, x0 (ix2 r k) * ((FloatOps.sitofp (F := Ideal) .f32 (x1 (ix2 k n)) + x3 (ix1 n)) * x2 (ix1 n))
  refine Finset.sum_congr rfl fun k _ => ?_
  have el : lidx_main_v7 (ix2 r n) k = ix2 r k := funext fun a => Fin.ext (by
    match a with
    | ⟨0, _⟩ => rfl
    | ⟨1, _⟩ => rfl)
  have er : ridx_main_v7 (ix2 r n) k = ix2 k n := funext fun a => Fin.ext (by
    match a with
    | ⟨0, _⟩ => rfl
    | ⟨1, _⟩ => rfl)
  have eo : idx_main_v1 (idx_main_v2 (ix2 k n)) = ix1 n := funext fun a => Fin.ext (by
    match a with
    | ⟨0, _⟩ => rfl)
  have es : idx_main_v4 (idx_main_v5 (ix2 k n)) = ix1 n := funext fun a => Fin.ext (by
    match a with
    | ⟨0, _⟩ => rfl)
  rw [el, er, val_main_v6_apply, val_main_v3_apply, val_main_v0_apply, val_main_v2_apply, val_main_v1_apply,
    val_main_v5_apply, val_main_v4_apply, eo, es]
  rfl

end Cert.ReferenceIdeal.RefValue

end
-- ==== Proof.lean ====
/-
  A matrix product with weights dequantized on the fly, against the plain formula.

  Both programs are given `x` [4096, 4096], integer weights `w` [4096, 11008], and per-column scale `s` and offset `o`
  [11008]. Over the extended reals both return
      out[r, n] = ∑ₖ x[r, k] · ((w[k, n] + o[n]) · s[n]),      k < 4096.
  The reference states this directly: convert, add the offset, multiply by the scale, contract.
  The kernel widens the columns to 11264, walks a grid of 8 × 11 blocks of the result, and for each block adds up
  the contraction in four stretches of 1024 in a scratch total that starts at zero; after the fourth stretch the
  total is the block. The narrowing of the factors to bf16 is the identity on extended reals and the matrix unit's
  product is the plain sum, so the total after `j` stretches is the sum of the first `1024·j` products, by
  associativity and commutativity of addition alone (Proof/Spec.lean, Proof/Running.lean). The host then drops the
  added columns, which were never mixed into the kept ones (Proof/KernelRun.lean). The precondition is not used.

  The frames of the two kernel programs are the generated ones; the reference's frame is its run with the result
  dropped; nothing was rewritten by the idealization, so `preserves` is `True`.
-/
import proofs.«167369_j22265110462499_1_alg».proof.Defs
import proofs.«167369_j22265110462499_1_alg».proof.Proof.Gen.Kernel
import proofs.«167369_j22265110462499_1_alg».proof.Proof.Gen.Kernel.Frame
import proofs.«167369_j22265110462499_1_alg».proof.Proof.Gen.KernelIdeal
import proofs.«167369_j22265110462499_1_alg».proof.Proof.Gen.KernelIdeal.Frame
import proofs.«167369_j22265110462499_1_alg».proof.Proof.Gen.ReferenceIdeal
import proofs.«167369_j22265110462499_1_alg».proof.Proof.Gen.Pre_finite_inputs
import proofs.«167369_j22265110462499_1_alg».proof.Proof.KernelRun
import proofs.«167369_j22265110462499_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments; drop what it says of the result. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with `result` of arguments that agree. -/
theorem algebraic : Cert.algebraic_KernelIdeal_ReferenceIdeal := by
  intro m ρ m' ρ' _ hagree
  refine ⟨fun c => Cert.KernelIdeal.KernelRun.resultOf m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.stage_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
